-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x8192x4096 .f32) (main_arg1 : FVec F S8192x4096 .f32) (main_arg2 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x8192x4096 : Shape := ⟨3, ![4, 8192, 4096]⟩
abbrev S8192x4096 : Shape := ⟨2, ![8192, 4096]⟩
abbrev S4096 : Shape := ⟨1, ![4096]⟩
abbrev S4x128x4096 : Shape := ⟨3, ![4, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 5
  | .vmem => 9
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .local _ .vmem, ⟨0, _⟩ => ⟨S4x128x4096, .f32⟩
  | .local _ .vmem, ⟨1, _⟩ => ⟨S4x128x4096, .f32⟩
  | .local _ .vmem, ⟨2, _⟩ => ⟨S128x4096, .f32⟩
  | .local _ .vmem, ⟨3, _⟩ => ⟨S128x4096, .f32⟩
  | .local _ .vmem, ⟨4, _⟩ => ⟨S4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4x128x4096_S4x128x4096_0_0_0 : ∀ a, (![0, 0, 0] : Fin 3 → Nat) a + S4x128x4096.size a ≤ S4x128x4096.size a
  h_S4x128x4096 : 0 < S4x128x4096.numel
  reduces_S4x128x4096_S128x4096 : S4x128x4096.Reduces [0] S128x4096
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x8192x4096.size a
  hwx0_0 : ∀ i : grid0.Coords, EltTy.bits .f32 = 32 ∨ (Rect.block (s := S4x8192x4096) S4x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x4096_S8192x4096_d0 : S4x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.NormSpec.lean ====
/-
  The mathematics of the fused all-reduce + residual + RMS-norm, stated once over plain arrays of extended reals and
  over no program.

  For rank-stacked activations `x : [4, 8192, 4096]`, a residual `r : [8192, 4096]` and a gain `g : [4096]`:
    * `summed x r (a, b)   = (∑ w < 4, x (w, a, b)) + r (a, b)`           — the new residual;
    * `meanSq x r a        = (∑ k < 4096, summed (a, k)²) / 4096`          — a token row's mean square;
    * `normed x r g (a, b) = summed (a, b) · rsqrt (meanSq a + ε) · g b`   — the normalized output.
  Every quantity of a token row `a` depends on that row alone, so a slab of 128 consecutive rows computes the same
  values from its own rows: `summedAt_of_slab` and `normedAt_of_slab` say exactly that, for a slab beginning at any
  row `a₀` with `a₀ + 128 ≤ 8192`. No law of the extended reals beyond congruence is used.
-/
import Idealize.ShloMosaic.PureOps.Ideal
import Idealize.ShloMosaic.Lib.ValueIdx

noncomputable section

open scoped BigOperators

namespace Cert.FusedNorm

open Idealize.ShloMosaic Idealize.ShloMosaic.ValueIdx

/-- The stacked activations' index set, [4, 8192, 4096]. -/
abbrev Stack : Shape := ⟨3, ![4, 8192, 4096]⟩
/-- The token-by-hidden index set, [8192, 4096]. -/
abbrev Tok : Shape := ⟨2, ![8192, 4096]⟩
/-- The hidden index set, [4096]. -/
abbrev Hid : Shape := ⟨1, ![4096]⟩
/-- A slab of 128 token rows of the stacked activations, [4, 128, 4096]. -/
abbrev StackSlab : Shape := ⟨3, ![4, 128, 4096]⟩
/-- A slab of 128 token rows, [128, 4096]. -/
abbrev TokSlab : Shape := ⟨2, ![128, 4096]⟩

/-- The divisor of the mean: the f32 word of 4096. -/
abbrev hidden : EReal := Ideal.ofBits .f32 0x45800000#32
/-- The stabilizer under the root: the f32 word nearest 1e-6 (the same word on both sides, never evaluated). -/
abbrev eps : EReal := Ideal.ofBits .f32 0x358637BD#32

/-! ## Over the whole arrays -/

/-- The sum over the four ranks plus the residual, at token `a` and hidden coordinate `b`. -/
def summedAt (x : Stack.Idx → EReal) (r : Tok.Idx → EReal) (a : Fin 8192) (b : Fin 4096) : EReal :=
  (∑ w : Fin 4, x (ix3 w a b)) + r (ix2 a b)

/-- Token `a`'s mean square of the new residual. -/
def meanSqAt (x : Stack.Idx → EReal) (r : Tok.Idx → EReal) (a : Fin 8192) : EReal :=
  Ideal.div (∑ k : Fin 4096, summedAt x r a k * summedAt x r a k) hidden

/-- The normalized, gained output at token `a` and hidden coordinate `b`. -/
def normedAt (x : Stack.Idx → EReal) (r : Tok.Idx → EReal) (g : Hid.Idx → EReal) (a : Fin 8192) (b : Fin 4096) : EReal :=
  summedAt x r a b * Ideal.rsqrt (meanSqAt x r a + eps) * g (ix1 b)

/-- The new residual as an array. -/
def summed (x : Stack.Idx → EReal) (r : Tok.Idx → EReal) : Tok.Idx → EReal :=
  fun i => summedAt x r (i 0) (i 1)

/-- The normalized output as an array. -/
def normed (x : Stack.Idx → EReal) (r : Tok.Idx → EReal) (g : Hid.Idx → EReal) : Tok.Idx → EReal :=
  fun i => normedAt x r g (i 0) (i 1)

/-! ## Over one slab of 128 rows -/

/-- The same sum computed from a slab's own rows. -/
def slabSummedAt (X : StackSlab.Idx → EReal) (R : TokSlab.Idx → EReal) (p : Fin 128) (q : Fin 4096) : EReal :=
  (∑ w : Fin 4, X (ix3 w p q)) + R (ix2 p q)

/-- The same normalized output computed from a slab's own rows and a copy `g` of the gain. -/
def slabNormedAt (X : StackSlab.Idx → EReal) (R : TokSlab.Idx → EReal) (g : Hid.Idx → EReal) (p : Fin 128) (q : Fin 4096) : EReal :=
  slabSummedAt X R p q
    * Ideal.rsqrt (Ideal.div (∑ k : Fin 4096, slabSummedAt X R p k * slabSummedAt X R p k) hidden + eps)
    * g (ix1 q)

/-- Row `p` of the slab that begins at row `a₀`. -/
abbrev slabRow (a₀ : Nat) (h : a₀ + 128 ≤ 8192) (p : Fin 128) : Fin 8192 := ⟨a₀ + p.val, by have := p.isLt; omega⟩

/-- A slab that holds rows `a₀ … a₀+127` of the arrays sums to the arrays' own sum on those rows. -/
theorem summedAt_of_slab (x : Stack.Idx → EReal) (r : Tok.Idx → EReal) (X : StackSlab.Idx → EReal) (R : TokSlab.Idx → EReal)
    (a₀ : Nat) (h : a₀ + 128 ≤ 8192)
    (hX : ∀ (w : Fin 4) (p : Fin 128) (q : Fin 4096), X (ix3 w p q) = x (ix3 w (slabRow a₀ h p) q))
    (hR : ∀ (p : Fin 128) (q : Fin 4096), R (ix2 p q) = r (ix2 (slabRow a₀ h p) q))
    (p : Fin 128) (q : Fin 4096) :
    slabSummedAt X R p q = summedAt x r (slabRow a₀ h p) q := by
  unfold slabSummedAt summedAt
  rw [hR p q]
  exact congrArg (· + r (ix2 (slabRow a₀ h p) q)) (Finset.sum_congr rfl fun w _ => hX w p q)

/-- And it normalizes to the arrays' own normalized output on those rows: a row's mean square reads that row only. -/
theorem normedAt_of_slab (x : Stack.Idx → EReal) (r : Tok.Idx → EReal) (g : Hid.Idx → EReal)
    (X : StackSlab.Idx → EReal) (R : TokSlab.Idx → EReal) (G : Hid.Idx → EReal)
    (a₀ : Nat) (h : a₀ + 128 ≤ 8192)
    (hX : ∀ (w : Fin 4) (p : Fin 128) (q : Fin 4096), X (ix3 w p q) = x (ix3 w (slabRow a₀ h p) q))
    (hR : ∀ (p : Fin 128) (q : Fin 4096), R (ix2 p q) = r (ix2 (slabRow a₀ h p) q))
    (hG : ∀ q : Fin 4096, G (ix1 q) = g (ix1 q))
    (p : Fin 128) (q : Fin 4096) :
    slabNormedAt X R G p q = normedAt x r g (slabRow a₀ h p) q := by
  unfold slabNormedAt normedAt meanSqAt
  rw [summedAt_of_slab x r X R a₀ h hX hR p q, hG q]
  have hs : (∑ k : Fin 4096, slabSummedAt X R p k * slabSummedAt X R p k)
      = ∑ k : Fin 4096, summedAt x r (slabRow a₀ h p) k * summedAt x r (slabRow a₀ h p) k :=
    Finset.sum_congr rfl fun k _ => by rw [summedAt_of_slab x r X R a₀ h hX hR p k]
  rw [hs]

end Cert.FusedNorm

end
-- ==== Proof.NormBody.lean ====
/-
  What the kernel body leaves in its two output blocks, read at one index of the block, over arbitrary loaded slabs:
  with `X : [4, 128, 4096]` the stacked slab, `R : [128, 4096]` the residual slab and `g : [4096]` the gain,
    * the block stored as the new residual holds, at (p, q), `(∑ w < 4, X (w, p, q)) + R (p, q)`;
    * the block stored as the normalized output holds, at (p, q), that sum times `rsqrt` of (row `p`'s sum of its
      squares divided by the word of 4096, plus the stabilizer), times `g q`.
  A lane reduction from the zero accumulator is, on the extended reals, the plain finite sum over the reduced axis; the
  shape casts and broadcasts only re-address an element.
-/
import proofs.«160749_j17695265259656_1_alg».proof.Proof.Gen.KernelIdeal.Value
import proofs.«160749_j17695265259656_1_alg».proof.Proof.NormSpec
import Idealize.ShloMosaic.PureOps.Ideal.Laws
import Idealize.ShloMosaic.Lib.ValueIdx
import Idealize.ShloMosaic.Lib.Pipeline.Value

noncomputable section

open scoped BigOperators

namespace Cert.FusedNorm.Body

open Idealize.ShloMosaic Idealize.ShloMosaic.ValueIdx Cert.KernelIdeal Cert.KernelIdeal.Gen Cert.KernelIdeal.Value Cert.FusedNorm

/-- The sum over the rank axis of a stacked slab. -/
abbrev rankSum (X : Vec Ideal S4x128x4096 .f32) : FVec Ideal S128x4096 .f32 :=
  multiReduction (F := Ideal) .add [0] S128x4096 X 0x00000000#32 reduces_S4x128x4096_S128x4096 (.inl rfl) rfl

/-- Each row's sum of squares of the new residual. -/
abbrev rowSq (X : Vec Ideal S4x128x4096 .f32) (R : Vec Ideal S128x4096 .f32) : FVec Ideal S128 .f32 :=
  multiReduction (F := Ideal) .add [1] S128 (mulf (addf (rankSum X) R) (addf (rankSum X) R)) 0x00000000#32
    reduces_S128x4096_S128 (.inl rfl) rfl

/-- At (p, q) the rank-axis reduction is the four-term sum over `w` of the slab at (w, p, q). -/
theorem rankSum_at (X : Vec Ideal S4x128x4096 .f32) (p : Fin 128) (q : Fin 4096) :
    rankSum X (ix2 p q) = ∑ w : Fin 4, X (ix3 w p q) := by
  refine (Ideal.multiReduction_add_single X 0x00000000#32 reduces_S4x128x4096_S128x4096 (.inl rfl) rfl (ix2 p q)).trans ?_
  refine Finset.sum_congr rfl fun (w : Fin 4) _ => congrArg X ?_
  funext a
  match a with
  | ⟨0, _⟩ => rfl
  | ⟨1, _⟩ => rfl
  | ⟨2, _⟩ => rfl

/-- The new residual's block at (p, q). -/
theorem newRes_at (X : Vec Ideal S4x128x4096 .f32) (R : Vec Ideal S128x4096 .f32) (p : Fin 128) (q : Fin 4096) :
    addf (rankSum X) R (ix2 p q) = slabSummedAt X R p q := by
  show rankSum X (ix2 p q) + R (ix2 p q) = _
  rw [rankSum_at]
  rfl

/-- Row `p`'s sum of squares is the sum over the hidden coordinate of the new residual squared. -/
theorem rowSq_at (X : Vec Ideal S4x128x4096 .f32) (R : Vec Ideal S128x4096 .f32) (p : Fin 128) :
    rowSq X R (ix1 p) = ∑ k : Fin 4096, slabSummedAt X R p k * slabSummedAt X R p k := by
  refine (Ideal.multiReduction_add_single (mulf (addf (rankSum X) R) (addf (rankSum X) R)) 0x00000000#32
    reduces_S128x4096_S128 (.inl rfl) rfl (ix1 p)).trans ?_
  refine Finset.sum_congr rfl fun (k : Fin 4096) _ => ?_
  have hk : (reduces_S128x4096_S128.lift (ix1 p) k : S128x4096.Idx) = ix2 p k := by
    funext a
    match a with
    | ⟨0, _⟩ => rfl
    | ⟨1, _⟩ => rfl
  rw [hk]
  show addf (rankSum X) R (ix2 p k) * addf (rankSum X) R (ix2 p k) = _
  rw [newRes_at]

/-- The block stored as the new residual, at (p, q). -/
theorem E4_at (X : Vec Ideal S4x128x4096 .f32) (R : Vec Ideal S128x4096 .f32) (p : Fin 128) (q : Fin 4096) :
    E4 (F := Ideal) X R (ix2 p q) = slabSummedAt X R p q := by
  have e0 : ix4_0 (ix2 p q) = ix2 p q := by
    funext a
    match a with
    | ⟨0, _⟩ => rfl
    | ⟨1, _⟩ => rfl
  have e1 : ix4_1 (ix2 p q) = ix2 p q := by
    funext a
    match a with
    | ⟨0, _⟩ => rfl
    | ⟨1, _⟩ => rfl
  show rankSum X (ix4_0 (ix2 p q)) + R (ix4_1 (ix2 p q)) = _
  rw [e0, e1]
  exact newRes_at X R p q

/-- The block stored as the normalized output, at (p, q). -/
theorem E3_at (X : Vec Ideal S4x128x4096 .f32) (R : Vec Ideal S128x4096 .f32) (g : Vec Ideal S4096 .f32) (p : Fin 128) (q : Fin 4096) :
    E3 (F := Ideal) X R g (ix2 p q) = slabNormedAt X R g p q := by
  have e0 : ix3_0 (ix2 p q) = ix2 p q := by
    funext a
    match a with
    | ⟨0, _⟩ => rfl
    | ⟨1, _⟩ => rfl
  have e1 : ix3_1 (ix2 p q) = ix2 p q := by
    funext a
    match a with
    | ⟨0, _⟩ => rfl
    | ⟨1, _⟩ => rfl
  have e2 : ix3_2 (ix2 p q) = ix1 p := by
    funext a
    match a with
    | ⟨0, _⟩ => rfl
  have e3 : ix3_3 (ix2 p q) = ix1 q := by
    funext a
    match a with
    | ⟨0, _⟩ => rfl
  show (rankSum X (ix3_0 (ix2 p q)) + R (ix3_1 (ix2 p q)))
      * Ideal.rsqrt (Ideal.div (rowSq X R (ix3_2 (ix2 p q))) hidden + eps) * g (ix3_3 (ix2 p q)) = _
  rw [e0, e1, e2, e3, rowSq_at]
  unfold slabNormedAt
  have h := newRes_at X R p q
  rw [← h]
  rfl

end Cert.FusedNorm.Body

end
-- ==== Proof.NormArrays.lean ====
/-
  From blocks to arrays. Grid point `t` (of 64) stages rows `128·t … 128·t + 127` of the stacked activations and of the
  residual, and the whole gain; it writes back rows `128·t … 128·t + 127` of both outputs. What it writes is the
  body's result on those slabs, which is the specification's array restricted to those rows (a token row's values read
  that row only); the 64 row slabs tile the 8192 rows, so after the run each output array is the specification's.
-/
import proofs.«160749_j17695265259656_1_alg».proof.Proof.NormBody
import Idealize.ShloMosaic.Lib.Pipeline.Value

noncomputable section

open scoped BigOperators

namespace Cert.FusedNorm.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.FusedNorm Cert.FusedNorm.Body

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-! ## The body's two blocks at an index, over arbitrary staged slabs -/

/-- The normalized output's block at (p, q). -/
theorem out3_at (x0 : Vec Ideal S4x128x4096 .f32) (x1 : Vec Ideal S128x4096 .f32) (x2 : Vec Ideal S4096 .f32)
    (p : Fin 128) (q : Fin 4096) : out0_3 x0 x1 x2 (ix2 p q) = slabNormedAt x0 x1 x2 p q := by
  unfold out0_3
  refine (canon3_eq (F := Ideal) _ _ _ (ix2 p q)).trans ?_
  rw [View.ld_unit_zero (S := S4x128x4096) zero3, View.ld_unit_zero (S := S128x4096) zero2, View.ld_unit_zero (S := S4096) zero1]
  exact E3_at x0 x1 x2 p q

/-- The new residual's block at (p, q). -/
theorem out4_at (x0 : Vec Ideal S4x128x4096 .f32) (x1 : Vec Ideal S128x4096 .f32) (x2 : Vec Ideal S4096 .f32)
    (p : Fin 128) (q : Fin 4096) : out0_4 x0 x1 x2 (ix2 p q) = slabSummedAt x0 x1 p q := by
  unfold out0_4
  refine (canon4_eq (F := Ideal) _ _ (ix2 p q)).trans ?_
  rw [View.ld_unit_zero (S := S4x128x4096) zero3, View.ld_unit_zero (S := S128x4096) zero2]
  exact E4_at x0 x1 p q

/-! ## Which rows a point stages and writes -/

/-- The printed index maps, decided over the 64 points: the row-blocked windows sit at block row `t`, every other block
    coordinate is 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Point `t`'s slab of rows lies inside the 8192 rows. -/
theorem slab_le (t : Fin cfg0.N) : t.val * 128 + 128 ≤ 8192 := by
  have h : t.val < grid0.N := t.isLt
  rw [N_0] at h
  omega

/-- The stacked activations' block at point `t` is rows `128·t …` of the argument. -/
theorem stack_at (c : Dev nD) (t : Fin cfg0.N) (w : Fin 4) (p : Fin 128) (q : Fin 4096) :
    (iblk m c 0 t : Vec Ideal S4x128x4096 .f32) (ix3 w p q)
      = (V m c main_arg0 : Stack.Idx → EReal) (ix3 w (slabRow (t.val * 128) (slab_le t) p) q) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 4 + 1 * w.val = w.val; omega
  | ⟨1, _⟩ => show win0_0.index t (1 : Fin 3) * 128 + 1 * p.val = t.val * 128 + p.val; omega
  | ⟨2, _⟩ => show win0_0.index t (2 : Fin 3) * 4096 + 1 * q.val = q.val; omega

/-- The residual's block at point `t` is rows `128·t …` of the argument. -/
theorem resid_at (c : Dev nD) (t : Fin cfg0.N) (p : Fin 128) (q : Fin 4096) :
    (iblk m c 1 t : Vec Ideal S128x4096 .f32) (ix2 p q)
      = (V m c main_arg1 : Tok.Idx → EReal) (ix2 (slabRow (t.val * 128) (slab_le t) p) q) := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 128 + 1 * p.val = t.val * 128 + p.val; omega
  | ⟨1, _⟩ => show win0_1.index t (1 : Fin 2) * 4096 + 1 * q.val = q.val; omega

/-- The gain's block at every point is the whole gain. -/
theorem gain_at (c : Dev nD) (t : Fin cfg0.N) (q : Fin 4096) :
    (iblk m c 2 t : Vec Ideal S4096 .f32) (ix1 q) = (V m c main_arg2 : Hid.Idx → EReal) (ix1 q) := by
  obtain ⟨-, -, -, -, -, e0, -⟩ := idx_facts t
  unfold iblk
  rw [View.read_apply]
  show V m c main_arg2 _ = V m c main_arg2 _
  congr 1
  funext a
  apply Fin.ext
  match a with
  | ⟨0, _⟩ => show win0_2.index t (0 : Fin 1) * 4096 + 1 * q.val = q.val; omega

/-! ## What a point writes back is its rows of the specification's arrays -/

/-- Point `t` writes back rows `128·t …` of `normed` of the argument arrays. -/
theorem flushed3_eq (c : Dev nD) (t : Fin cfg0.N) :
    (dats m 0 c).flushed 3 t
      = ((cfg0.win 3).blk t).view.read (Elt Ideal) (normed (V m c main_arg0) (V m c main_arg1) (V m c main_arg2)) := by
  rw [flushed3]
  obtain ⟨-, -, -, -, -, -, e0, e1, -⟩ := idx_facts t
  funext j
  have hj0 : (j 0).val < 128 := (j 0).isLt
  have hj1 : (j 1).val < 4096 := (j 1).isLt
  have hj : (j : S128x4096.Idx) = ix2 (⟨(j 0).val, hj0⟩ : Fin 128) (⟨(j 1).val, hj1⟩ : Fin 4096) := by
    funext a
    match a with
    | ⟨0, _⟩ => rfl
    | ⟨1, _⟩ => rfl
  show out0_3 (iblk m c 0 t) (iblk m c 1 t) (iblk m c 2 t) (j : S128x4096.Idx)
    = normedAt (V m c main_arg0) (V m c main_arg1) (V m c main_arg2)
        ((((cfg0.win 3).blk t).view.emb j) 0) ((((cfg0.win 3).blk t).view.emb j) 1)
  refine (congrArg (out0_3 (iblk m c 0 t) (iblk m c 1 t) (iblk m c 2 t)) hj).trans ?_
  refine (out3_at _ _ _ _ _).trans ?_
  refine (normedAt_of_slab (V m c main_arg0) (V m c main_arg1) (V m c main_arg2) _ _ _ (t.val * 128) (slab_le t)
    (fun w p q => stack_at m c t w p q) (fun p q => resid_at m c t p q) (fun q => gain_at m c t q) _ _).trans ?_
  have hi0 : (((((cfg0.win 3).blk t).view.emb j) 0 : Fin 8192)) = slabRow (t.val * 128) (slab_le t) ⟨(j 0).val, hj0⟩ :=
    Fin.ext (by show win0_3.index t (0 : Fin 2) * 128 + 1 * (j 0).val = t.val * 128 + (j 0).val; omega)
  have hi1 : (((((cfg0.win 3).blk t).view.emb j) 1 : Fin 4096)) = ⟨(j 1).val, hj1⟩ :=
    Fin.ext (by show win0_3.index t (1 : Fin 2) * 4096 + 1 * (j 1).val = (j 1).val; omega)
  rw [hi0, hi1]
  rfl

/-- Point `t` writes back rows `128·t …` of `summed` of the argument arrays. -/
theorem flushed4_eq (c : Dev nD) (t : Fin cfg0.N) :
    (dats m 0 c).flushed 4 t
      = ((cfg0.win 4).blk t).view.read (Elt Ideal) (summed (V m c main_arg0) (V m c main_arg1)) := by
  rw [flushed4]
  obtain ⟨-, -, -, -, -, -, -, -, e0, e1⟩ := idx_facts t
  funext j
  have hj0 : (j 0).val < 128 := (j 0).isLt
  have hj1 : (j 1).val < 4096 := (j 1).isLt
  have hj : (j : S128x4096.Idx) = ix2 (⟨(j 0).val, hj0⟩ : Fin 128) (⟨(j 1).val, hj1⟩ : Fin 4096) := by
    funext a
    match a with
    | ⟨0, _⟩ => rfl
    | ⟨1, _⟩ => rfl
  show out0_4 (iblk m c 0 t) (iblk m c 1 t) (iblk m c 2 t) (j : S128x4096.Idx)
    = summedAt (V m c main_arg0) (V m c main_arg1)
        ((((cfg0.win 4).blk t).view.emb j) 0) ((((cfg0.win 4).blk t).view.emb j) 1)
  refine (congrArg (out0_4 (iblk m c 0 t) (iblk m c 1 t) (iblk m c 2 t)) hj).trans ?_
  refine (out4_at _ _ _ _ _).trans ?_
  refine (summedAt_of_slab (V m c main_arg0) (V m c main_arg1) _ _ (t.val * 128) (slab_le t)
    (fun w p q => stack_at m c t w p q) (fun p q => resid_at m c t p q) _ _).trans ?_
  have hi0 : (((((cfg0.win 4).blk t).view.emb j) 0 : Fin 8192)) = slabRow (t.val * 128) (slab_le t) ⟨(j 0).val, hj0⟩ :=
    Fin.ext (by show win0_4.index t (0 : Fin 2) * 128 + 1 * (j 0).val = t.val * 128 + (j 0).val; omega)
  have hi1 : (((((cfg0.win 4).blk t).view.emb j) 1 : Fin 4096)) = ⟨(j 1).val, hj1⟩ :=
    Fin.ext (by show win0_4.index t (1 : Fin 2) * 4096 + 1 * (j 1).val = (j 1).val; omega)
  rw [hi0, hi1]
  rfl

/-! ## The row slabs tile the arrays -/

/-- An index is in point `t`'s block of the normalized output iff each coordinate is in the block's range. -/
theorem mem_blk3 (t : Fin cfg0.N) (i : S8192x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0_0).slice (win0_3.rect t)).set ↔ _
  rw [View.set_slice_whole, Rect.mem_set_unit]
  exact Iff.rfl

/-- The same for the new residual's window. -/
theorem mem_blk4 (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_1).slice (win0_4.rect t)).set ↔ _
  rw [View.set_slice_whole, Rect.mem_set_unit]
  exact Iff.rfl

/-- The point that owns row `a` is `a / 128`. -/
def owner (i : S8192x4096.Idx) : Fin cfg0.N :=
  ⟨(i 0).val / 128, by
    have h : (i 0).val < 8192 := (i 0).isLt
    show (i 0).val / 128 < grid0.N
    rw [N_0]; omega⟩

theorem owner_val (i : S8192x4096.Idx) : (owner i).val = (i 0).val / 128 := rfl

/-- Every index of the normalized output is in its row's owner's block. -/
theorem cover3 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨-, -, -, -, -, -, e0, e1, -⟩ := idx_facts (owner i)
  have ho := owner_val i
  refine ⟨owner i, flush0_3 _, ?_⟩
  rw [mem_blk3]
  intro a
  match a with
  | ⟨0, _⟩ => show win0_3.index (owner i) (0 : Fin 2) * 128 ≤ (i 0).val ∧ (i 0).val < win0_3.index (owner i) (0 : Fin 2) * 128 + 128; omega
  | ⟨1, _⟩ => show win0_3.index (owner i) (1 : Fin 2) * 4096 ≤ (i 1).val ∧ (i 1).val < win0_3.index (owner i) (1 : Fin 2) * 4096 + 4096; omega

/-- Every index of the new residual is in its row's owner's block. -/
theorem cover4 (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨-, -, -, -, -, -, -, -, e0, e1⟩ := idx_facts (owner i)
  have ho := owner_val i
  refine ⟨owner i, flush0_4 _, ?_⟩
  rw [mem_blk4]
  intro a
  match a with
  | ⟨0, _⟩ => show win0_4.index (owner i) (0 : Fin 2) * 128 ≤ (i 0).val ∧ (i 0).val < win0_4.index (owner i) (0 : Fin 2) * 128 + 128; omega
  | ⟨1, _⟩ => show win0_4.index (owner i) (1 : Fin 2) * 4096 ≤ (i 1).val ∧ (i 1).val < win0_4.index (owner i) (1 : Fin 2) * 4096 + 4096; omega

/-! ## The arrays after the run -/

/-- The normalized output array after the run. -/
theorem final3 (c : Dev nD) :
    (dats m 0 c).arrAt 3 cfg0.N = normed (m ((c : Thread nD τ).loc main_arg0)) (m ((c : Thread nD τ).loc main_arg1)) (m ((c : Thread nD τ).loc main_arg2)) :=
  (dats m 0 c).arrAt_eq_of_cover 3 (normed (V m c main_arg0) (V m c main_arg1) (V m c main_arg2))
    (fun t _ => flushed3_eq m c t) cover3

/-- The new residual array after the run. -/
theorem final4 (c : Dev nD) :
    (dats m 0 c).arrAt 4 cfg0.N = summed (m ((c : Thread nD τ).loc main_arg0)) (m ((c : Thread nD τ).loc main_arg1)) :=
  (dats m 0 c).arrAt_eq_of_cover 4 (summed (V m c main_arg0) (V m c main_arg1))
    (fun t _ => flushed4_eq m c t) cover4

/-- The kernel's run, read: both result arrays at the specification's functions of the arguments, the arguments kept. -/
theorem run : θ_run defs (onTc (τ := τ) (main (F := Ideal))) ⟨m, fun _ => 0, ρ⟩ fun r => ∀ c : Dev nD,
      r.2.mem ((c : Thread nD τ).loc main_v0_0) = normed (m ((c : Thread nD τ).loc main_arg0)) (m ((c : Thread nD τ).loc main_arg1)) (m ((c : Thread nD τ).loc main_arg2))
      ∧ r.2.mem ((c : Thread nD τ).loc main_v0_1) = summed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (run_blocks m ρ)

end Cert.FusedNorm.Arrays

end
-- ==== Proof.NormRef.lean ====
/-
  The reference's two results, read one host operation at a time, are the specification's arrays: the host's sum over
  the rank axis from a zero initial value is the four-term sum, its mean is the row sum of squares divided by the word of
  4096, its `rsqrt` the extended reals' `rsqrt`, and each broadcast reads the one element under the index.
-/
import proofs.«160749_j17695265259656_1_alg».proof.Proof.Gen.ReferenceIdeal.Read
import proofs.«160749_j17695265259656_1_alg».proof.Proof.NormSpec
import Idealize.ShloMosaic.PureOps.Ideal.Laws

noncomputable section

open scoped BigOperators

namespace Cert.FusedNorm.Ref

open Idealize.ShloMosaic Idealize.ShloMosaic.ValueIdx Cert.ReferenceIdeal Cert.ReferenceIdeal.Read Cert.FusedNorm

/-- The index the rank-axis sum reads at term `k` is `(k, a, b)`. -/
theorem idx_rank (i : S8192x4096.Idx) (k : Fin 4) : idx_main_v0 i k = ix3 k (i 0) (i 1) := by
  funext a; match a with | ⟨0, _⟩ => rfl | ⟨1, _⟩ => rfl | ⟨2, _⟩ => rfl

/-- The gain is read at the hidden coordinate, through its two broadcasts. -/
theorem idx_gain (i : S8192x4096.Idx) : idx_main_v12 (idx_main_v13 i) = ix1 (i 1) := by
  funext a; match a with | ⟨0, _⟩ => rfl

/-- The reference's `reduced + residual` is `summed`. -/
theorem stage_summed (x0 : (⟨S4x8192x4096, .f32⟩ : BufTy).Contents (Elt Ideal)) (x1 : (⟨S8192x4096, .f32⟩ : BufTy).Contents (Elt Ideal)) :
    val_main_v1 (F := Ideal) x0 x1 = summed x0 x1 := by
  funext i
  rw [val_main_v1_apply, val_main_v0_apply, val_main_cst_apply]
  simp only [Ideal.addf_def, Ideal.ofBits_def, Ideal.ofBits_zero_f32, zero_add]
  exact congrArg₂ (· + ·) (Finset.sum_congr rfl fun k _ => congrArg x0 (idx_rank i k)) (congrArg x1 (eq_ix2 i))

/-- The reference's normalized, gained product is `normed`. -/
theorem stage_normed (x0 : (⟨S4x8192x4096, .f32⟩ : BufTy).Contents (Elt Ideal)) (x1 : (⟨S8192x4096, .f32⟩ : BufTy).Contents (Elt Ideal))
    (x2 : (⟨S4096, .f32⟩ : BufTy).Contents (Elt Ideal)) :
    val_main_v14 (F := Ideal) x0 x1 x2 = normed x0 x1 x2 := by
  funext i
  rw [val_main_v14_apply, val_main_v11_apply, val_main_v10_apply, val_main_v9_apply, val_main_v8_apply, val_main_v6_apply,
    val_main_v4_apply, val_main_v3_apply, val_main_v5_apply, val_main_v7_apply, val_main_cst_1_apply, val_main_cst_2_apply,
    val_main_cst_0_apply, val_main_v13_apply, val_main_v12_apply]
  simp only [val_main_v2_apply, stage_summed, Ideal.mulf_def, Ideal.addf_def, Ideal.hostDivf_def, Ideal.hostUnary_rsqrt_def,
    Ideal.ofBits_def, Ideal.ofBits_zero_f32, zero_add]
  rw [idx_gain]
  rfl

end Cert.FusedNorm.Ref

end
-- ==== Proof.lean ====
/-
  A fused all-reduce + residual add + RMS norm, against its plain array reference, over the extended reals.

  The kernel walks the 8192 token rows in 64 slabs of 128 rows. On a slab it sums the four rank copies, adds the
  residual (the new residual, written back), and multiplies each row by `rsqrt` of (its mean square plus a
  stabilizer) and by the gain (the normalized output, written back). The reference does the same on the whole arrays.
  Both results are, index by index, the functions `normed` and `summed` of Proof/NormSpec.lean of the three argument
  arrays: the same operations in the same order on each element, the two constants the same words on both sides, and a
  row's statistics reading that row only, so cutting the rows into slabs changes nothing. No algebraic law beyond
  congruence is needed, so the finiteness of the inputs is never used.

  The kernel side is Proof/NormBody.lean (a block at an index) and Proof/NormArrays.lean (blocks to arrays, the run);
  the reference side is Proof/NormRef.lean. The idealized kernel is the kernel's own text read over the extended
  reals (no operation was rewritten), so the idealization claim is trivial.
-/
import proofs.«160749_j17695265259656_1_alg».proof.Defs
import proofs.«160749_j17695265259656_1_alg».proof.Proof.Gen.Kernel
import proofs.«160749_j17695265259656_1_alg».proof.Proof.Gen.Kernel.Frame
import proofs.«160749_j17695265259656_1_alg».proof.Proof.Gen.KernelIdeal
import proofs.«160749_j17695265259656_1_alg».proof.Proof.Gen.KernelIdeal.Frame
import proofs.«160749_j17695265259656_1_alg».proof.Proof.Gen.KernelIdeal.Value
import proofs.«160749_j17695265259656_1_alg».proof.Proof.Gen.ReferenceIdeal
import proofs.«160749_j17695265259656_1_alg».proof.Proof.Gen.ReferenceIdeal.Run
import proofs.«160749_j17695265259656_1_alg».proof.Proof.Gen.ReferenceIdeal.Read
import proofs.«160749_j17695265259656_1_alg».proof.Proof.Gen.Pre_finite_inputs
import proofs.«160749_j17695265259656_1_alg».proof.Proof.NormArrays
import proofs.«160749_j17695265259656_1_alg».proof.Proof.NormRef
import Idealize.ShloMosaic.Adequacy
import Idealize.ShloMosaic.Init

noncomputable section

namespace Cert.Proof

open Idealize.ShloMosaic Idealize.SL.Sem

/-- The word-level kernel terminates without fault and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the normalized output at `normed` and the
    new residual at `summed` of those arguments. -/
theorem algebraic : Cert.algebraic_KernelIdeal_ReferenceIdeal := by
  intro m ρ m' ρ' _ hagree
  refine ⟨fun c => Cert.FusedNorm.normed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.FusedNorm.summed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.FusedNorm.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.FusedNorm.Ref.stage_normed,
      (hagree c).1, (hagree c).2.1, (hagree c).2.2]
  · rw [(h c).2.1, Cert.ReferenceIdeal.Read.val_main_v1_eq, Cert.FusedNorm.Ref.stage_summed,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
